-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x48000 : Shape := ⟨2, ![256, 48000]⟩
abbrev S_ : Shape := ⟨0, ![]⟩

class Facts : Prop where
  bcast_S_S256x48000 : S_.BroadcastsInDim S256x48000 (![] : Fin 0 → Fin S256x48000.rank)
  reducesTo_S256x48000_S_d0_1 : S256x48000.ReducesTo [0, 1] S_
  h_S_ : 0 < S_.numel

variable [Facts]

def fn {F : FTy → Type} [FloatOps F] (main_arg0 : FVec F S256x48000 .f32) (main_arg1 : FVec F S256x48000 .f32) : IVec S_ 1 :=
  let main_v0 : FVec F S256x48000 .f32 := Host.absf main_arg0
  let main_cst : FVec F S_ .f32 := constant S_ .f32 0x7F800000#32
  let main_v1 : FVec F S256x48000 .f32 := broadcastInDim S256x48000 ![] bcast_S_S256x48000 main_cst
  let main_v2 : IVec S256x48000 1 := cmpf .olt main_v0 main_v1
  let main_c : IVec S_ 1 := constantI S_ 1 1#1
  let main_v3 : IVec S_ 1 := (fun x v => Host.reduce IntOp.andi x v reducesTo_S256x48000_S_d0_1 h_S_) main_v2 main_c
  let main_v4 : FVec F S256x48000 .f32 := Host.absf main_arg1
  let main_cst_0 : FVec F S_ .f32 := constant S_ .f32 0x7F800000#32
  let main_v5 : FVec F S256x48000 .f32 := broadcastInDim S256x48000 ![] bcast_S_S256x48000 main_cst_0
  let main_v6 : IVec S256x48000 1 := cmpf .olt main_v4 main_v5
  let main_c_1 : IVec S_ 1 := constantI S_ 1 1#1
  let main_v7 : IVec S_ 1 := (fun x v => Host.reduce IntOp.andi x v reducesTo_S256x48000_S_d0_1 h_S_) main_v6 main_c_1
  let main_v8 : IVec S_ 1 := andi main_v3 main_v7
  main_v8
-- ==== Kernel.lean ====
abbrev S256x48000 : Shape := ⟨2, ![256, 48000]⟩
abbrev S256x1 : Shape := ⟨2, ![256, 1]⟩
abbrev S32x48000 : Shape := ⟨2, ![32, 48000]⟩
abbrev S32x1 : Shape := ⟨2, ![32, 1]⟩
abbrev S32 : Shape := ⟨1, ![32]⟩
abbrev S256 : Shape := ⟨1, ![256]⟩
abbrev S_ : Shape := ⟨0, ![]⟩

abbrev nBuf : Space → Nat
  | .hbm => 32
  | .vmem => 10
  | .smem => 0
  | _ => 0

abbrev bufTy : (tb : Table) → Fin (tcTables nBuf tb) → BufTy
  | .hbm, ⟨0, _⟩ => ⟨S256x48000, .f32⟩
  | .hbm, ⟨1, _⟩ => ⟨S256x48000, .f32⟩
  | .hbm, ⟨2, _⟩ => ⟨S256x1, .f32⟩
  | .hbm, ⟨3, _⟩ => ⟨S256x1, .f32⟩
  | .hbm, ⟨4, _⟩ => ⟨S256x1, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S32x48000, .f32⟩
  | .local _ .vmem, ⟨1, _⟩ => ⟨S32x48000, .f32⟩
  | .local _ .vmem, ⟨2, _⟩ => ⟨S32x48000, .f32⟩
  | .local _ .vmem, ⟨3, _⟩ => ⟨S32x48000, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | _, _ => ⟨S256x48000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x48000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x48000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S32x48000_S32x48000_0_0 : ∀ a, (![0, 0] : Fin 2 → Nat) a + S32x48000.size a ≤ S32x48000.size a
  h_S32x48000 : 0 < S32x48000.numel
  reduces_S32x48000_S32 : S32x48000.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  shapeCasts_S256x1_S256 : S256x1.ShapeCasts S256
  bcast_S_S256 : S_.BroadcastsInDim S256 (![] : Fin 0 → Fin S256.rank)
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x48000.size a ≤ S256x48000.size a
  hwx0_0 : ∀ i : grid0.Coords, EltTy.bits .f32 = 32 ∨ (Rect.block (s := S256x48000) S32x48000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x48000.size a ≤ S256x48000.size a
  hwx0_1 : ∀ i : grid0.Coords, EltTy.bits .f32 = 32 ∨ (Rect.block (s := S256x48000) S32x48000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S256x1.size a
  hwx0_2 : ∀ i : grid0.Coords, EltTy.bits .f32 = 32 ∨ (Rect.block (s := S256x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S256x1.size a
  hwx0_3 : ∀ i : grid0.Coords, EltTy.bits .f32 = 32 ∨ (Rect.block (s := S256x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S256x1.size a
  hwx0_4 : ∀ i : grid0.Coords, EltTy.bits .f32 = 32 ∨ (Rect.block (s := S256x1) S32x1.size (cc0_transform_4 i) (hinb0_4 i)).WholeWords (EltTy.packing .f32)

variable [Facts₀]

abbrev win0_0 : Pipeline.Window sig grid0 :=
  Pipeline.Window.ofSpec (Memref.whole main_arg1) S32x48000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x48000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S32x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S32x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S32x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x48000 : Shape := ⟨2, ![256, 48000]⟩
abbrev S_ : Shape := ⟨0, ![]⟩
abbrev S256 : Shape := ⟨1, ![256]⟩
abbrev S256x1 : Shape := ⟨2, ![256, 1]⟩

abbrev nBuf : Space → Nat
  | .hbm => 32
  | .vmem => 0
  | .smem => 0
  | _ => 0

abbrev bufTy : (tb : Table) → Fin (tcTables nBuf tb) → BufTy
  | .hbm, ⟨0, _⟩ => ⟨S256x48000, .f32⟩
  | .hbm, ⟨1, _⟩ => ⟨S256x48000, .f32⟩
  | .hbm, ⟨2, _⟩ => ⟨S256x48000, .f32⟩
  | .hbm, ⟨3, _⟩ => ⟨S_, .f32⟩
  | .hbm, ⟨4, _⟩ => ⟨S256, .f32⟩
  | .hbm, ⟨5, _⟩ => ⟨S256x48000, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256x1, .f32⟩
  | .hbm, ⟨10, _⟩ => ⟨S256x48000, .f32⟩
  | .hbm, ⟨11, _⟩ => ⟨S256x48000, .f32⟩
  | .hbm, ⟨12, _⟩ => ⟨S256x48000, .f32⟩
  | .hbm, ⟨13, _⟩ => ⟨S256x48000, .f32⟩
  | .hbm, ⟨14, _⟩ => ⟨S_, .f32⟩
  | .hbm, ⟨15, _⟩ => ⟨S256, .f32⟩
  | .hbm, ⟨16, _⟩ => ⟨S256x48000, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S256x48000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S256x48000_S256_d1 : S256x48000.ReducesTo [1] S256
  h_S_ : 0 < S_.numel
  bcast_S256_S256x1_0 : S256.BroadcastsInDim S256x1 (![0] : Fin 1 → Fin S256x1.rank)
  bcast_S256x1_S256x48000_0_1 : S256x1.BroadcastsInDim S256x48000 (![0, 1] : Fin 2 → Fin S256x48000.rank)
  bcast_S_S256 : S_.BroadcastsInDim S256 (![] : Fin 0 → Fin S256.rank)
  reducesTo_S256_S_d0 : S256.ReducesTo [0] S_

variable [Facts₀]

class Facts : Prop extends Facts₀ where

variable [Facts]
-- ==== Proof.RowSpec.lean ====
/-
  Row inner products of two 256 × 48000 arrays of extended reals, and the closing stretch both programs share.

  `rowDot a b r` is the inner product of row `r` of `a` with row `r` of `b`; `colDot a b` is the same quantity laid
  out as a 256 × 1 column. With `t` the target and `x` the input, the three quantities a row contributes are
  `rowDot t x` (the correlation), `rowDot t t` (the target's energy) and `rowDot x x` (the input's energy).
-/
import Idealize.ShloMosaic.Lib.ValueIdx
import Idealize.ShloMosaic.PureOps.Ideal

noncomputable section

open scoped BigOperators

namespace Cert.RowSpec

open Idealize.ShloMosaic Idealize.ShloMosaic.ValueIdx

/-- The inner product of row `r` of `a` and row `r` of `b`. -/
def rowDot (a b : (⟨2, ![256, 48000]⟩ : Shape).Idx → EReal) (r : Fin 256) : EReal :=
  ∑ k : Fin 48000, a (ix2 r k) * b (ix2 r k)

/-- The row inner products as a 256 × 1 column: entry `(r, 0)` is `rowDot a b r`. -/
def colDot (a b : (⟨2, ![256, 48000]⟩ : Shape).Idx → EReal) : (⟨2, ![256, 1]⟩ : Shape).Idx → EReal :=
  fun i => rowDot a b ⟨(i 0).val, idx2_lt0 i⟩

end Cert.RowSpec

end
-- ==== Proof.KernelRows.lean ====
/-
  What the kernel's three output arrays hold after the region, at the ideal instance.

  The grid has 8 points; point `t` stages rows `32 t … 32 t + 31` of the target (window 0) and of the input (window 1), all
  48000 columns, and writes three 32 × 1 blocks: for each staged row the sum over the columns of target · input, of
  target · target and of input · input. So block `t` of each output is rows `32 t … 32 t + 31` of ONE column of row
  inner products of the whole arrays (`RowSpec.colDot`), the eight blocks tile the 256 rows, and each output array ends
  as that column.
-/
import proofs.«121650_j12833362280914_1_alg».proof.Proof.Gen.KernelIdeal.Frame
import proofs.«121650_j12833362280914_1_alg».proof.Proof.RowSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Rows

open Cert.KernelIdeal Cert.KernelIdeal.Gen Cert.RowSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The body's stored value at an index -/

/-- Row `p` of the stored 32 × 1 value is the sum over the 48000 columns of the products of the two loaded blocks'
    entries in row `p`: the cast `[32] → [32, 1]` keeps the row-major position, and a one-axis sum at the ideal
    instance is the sum over that axis's coordinates. -/
theorem pay_dot (x0 x1 : FVec Ideal S32x48000 .f32) (p : Fin 32) (q : Fin 1) :
    k0_pay1 (F := Ideal) x0 x1 (ix2 p q) = ∑ k : Fin 48000, x0 (ix2 p k) * x1 (ix2 p k) := by
  unfold k0_pay1
  refine (shapeCast_apply _ shapeCasts_S32_S32x1 (ix2 p q) (ix1 p) ?_).trans ?_
  · rw [Shape.rowMajor_val_two, Shape.rowMajor_val_one]
    show p.val = p.val * 1 + q.val
    have := q.isLt; omega
  refine (Ideal.multiReduction_add_single (mulf x0 x1) 0x00000000#32 reduces_S32x48000_S32 (.inl rfl) rfl (ix1 p)).trans ?_
  refine Finset.sum_congr rfl fun k _ => ?_
  have e : (reduces_S32x48000_S32.lift (ix1 p) k : S32x48000.Idx) = ix2 p k :=
    funext fun a => Fin.ext (by match a with | ⟨0, _⟩ => rfl | ⟨1, _⟩ => rfl)
  rw [e]
  rfl

/-- The second and third stored values are the first at a repeated operand. -/
theorem pay2_eq (x0 : FVec Ideal S32x48000 .f32) : k0_pay2 (F := Ideal) x0 = k0_pay1 (F := Ideal) x0 x0 := rfl
theorem pay3_eq (x1 : FVec Ideal S32x48000 .f32) : k0_pay3 (F := Ideal) x1 = k0_pay1 (F := Ideal) x1 x1 := rfl

/-! ## The index maps over the grid -/

/-- Every window's block index at point `t` is `(t, 0)`: the two inputs move with each output along the rows, and no
    window moves along its second axis. -/
theorem idx_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_3.index t (0 : Fin 2) = win0_2.index t (0 : Fin 2) ∧ win0_3.index t (1 : Fin 2) = 0
    ∧ win0_4.index t (0 : Fin 2) = win0_2.index t (0 : Fin 2) ∧ win0_4.index t (1 : Fin 2) = 0
    ∧ win0_2.index t (1 : Fin 2) = 0 ∧ win0_2.index t (0 : Fin 2) ≤ 7 :=
  (by decide +kernel : ∀ t : Fin grid0.N, _)

/-- Every one of the eight row blocks is some point's. -/
theorem idx_onto : ∀ q0 : Fin 8, ∃ t : Fin cfg0.N, win0_2.index t (0 : Fin 2) = q0.val :=
  (by decide +kernel : ∀ q0 : Fin 8, ∃ t : Fin grid0.N, win0_2.index t (0 : Fin 2) = q0.val)

/-! ## An input block's entry is the array's entry in the same row and column -/

/-- Row `p`, column `k` of the target's block at point `t` is the target array at row `32 · (block index) + p`,
    column `k`. -/
theorem iblk0_apply (c : Dev nD) (t : Fin cfg0.N) (p : Fin 32) (k : Fin 48000) (r : Fin 256)
    (hr : r.val = win0_2.index t (0 : Fin 2) * 32 + p.val) :
    iblk m c 0 t (ix2 p k) = V m c main_arg1 (ix2 r k) := by
  obtain ⟨e0, e1, -⟩ := idx_facts t
  show V m c main_arg1 (((cfg0.win 0).blk t).view.emb (ix2 p k)) = V m c main_arg1 (ix2 r k)
  refine congrArg (V m c main_arg1) (funext fun a => Fin.ext ?_)
  match a with
  | ⟨0, _⟩ => show win0_0.index t (0 : Fin 2) * 32 + 1 * p.val = r.val; omega
  | ⟨1, _⟩ => show win0_0.index t (1 : Fin 2) * 48000 + 1 * k.val = k.val; omega

/-- The same for the input's block. -/
theorem iblk1_apply (c : Dev nD) (t : Fin cfg0.N) (p : Fin 32) (k : Fin 48000) (r : Fin 256)
    (hr : r.val = win0_2.index t (0 : Fin 2) * 32 + p.val) :
    iblk m c 1 t (ix2 p k) = V m c main_arg0 (ix2 r k) := by
  obtain ⟨-, -, e2, e3, -⟩ := idx_facts t
  show V m c main_arg0 (((cfg0.win 1).blk t).view.emb (ix2 p k)) = V m c main_arg0 (ix2 r k)
  refine congrArg (V m c main_arg0) (funext fun a => Fin.ext ?_)
  match a with
  | ⟨0, _⟩ => show win0_1.index t (0 : Fin 2) * 32 + 1 * p.val = r.val; omega
  | ⟨1, _⟩ => show win0_1.index t (1 : Fin 2) * 48000 + 1 * k.val = k.val; omega

/-! ## What each point writes back -/

/-- Row `32 · (block index) + p` of the column is what row `p` of point `t`'s block reads. -/
theorem colDot_emb2 (A B : S256x48000.Idx → EReal) (t : Fin cfg0.N) (p : Fin 32) (q : Fin 1) (r : Fin 256)
    (hr : r.val = win0_2.index t (0 : Fin 2) * 32 + p.val) :
    colDot A B (((cfg0.win 2).blk t).view.emb (ix2 p q)) = rowDot A B r := by
  unfold colDot
  refine congrArg (rowDot A B) (Fin.ext ?_)
  show win0_2.index t (0 : Fin 2) * 32 + 1 * p.val = r.val
  omega
theorem colDot_emb3 (A B : S256x48000.Idx → EReal) (t : Fin cfg0.N) (p : Fin 32) (q : Fin 1) (r : Fin 256)
    (hr : r.val = win0_2.index t (0 : Fin 2) * 32 + p.val) :
    colDot A B (((cfg0.win 3).blk t).view.emb (ix2 p q)) = rowDot A B r := by
  obtain ⟨-, -, -, -, e4, -⟩ := idx_facts t
  unfold colDot
  refine congrArg (rowDot A B) (Fin.ext ?_)
  show win0_3.index t (0 : Fin 2) * 32 + 1 * p.val = r.val
  omega
theorem colDot_emb4 (A B : S256x48000.Idx → EReal) (t : Fin cfg0.N) (p : Fin 32) (q : Fin 1) (r : Fin 256)
    (hr : r.val = win0_2.index t (0 : Fin 2) * 32 + p.val) :
    colDot A B (((cfg0.win 4).blk t).view.emb (ix2 p q)) = rowDot A B r := by
  obtain ⟨-, -, -, -, -, -, e6, -⟩ := idx_facts t
  unfold colDot
  refine congrArg (rowDot A B) (Fin.ext ?_)
  show win0_4.index t (0 : Fin 2) * 32 + 1 * p.val = r.val
  omega

/-- Point `t` writes back to the first output block `t` of the column of target · input row sums. -/
theorem flushed2_eq (c : Dev nD) (t : Fin cfg0.N) :
    (dats m 0 c).flushed 2 t
      = ((cfg0.win 2).blk t).view.read (Elt Ideal) (colDot (V m c main_arg1) (V m c main_arg0)) := by
  show (cfg0.win 2).cut (grid0.coords t) ((dats m 0 c).after 2 t) = _
  rw [after0_2]
  unfold out0_2
  rw [View.canon_unit_zero hz]
  simp only [View.ld_unit_zero (S := S32x48000) hz]
  obtain ⟨-, -, -, -, -, -, -, -, -, e9⟩ := idx_facts t
  funext j
  obtain ⟨p, q, rfl⟩ : ∃ (p : Fin 32) (q : Fin 1), j = ix2 p q := ⟨j 0, j 1, eq_ix2 j⟩
  have hp := p.isLt
  obtain ⟨r, hr⟩ : ∃ r : Fin 256, r.val = win0_2.index t (0 : Fin 2) * 32 + p.val := ⟨⟨_, by omega⟩, rfl⟩
  have eL : (win0 2).cut (grid0.coords t) (k0_pay1 (F := Ideal) (iblk m c 0 t) (iblk m c 1 t)) (ix2 p q)
      = k0_pay1 (F := Ideal) (iblk m c 0 t) (iblk m c 1 t) (ix2 p q) := rfl
  rw [eL, View.read_apply, cast_eq]
  refine (pay_dot (iblk m c 0 t) (iblk m c 1 t) p q).trans ?_
  refine Eq.trans ?_ (colDot_emb2 _ _ t p q r hr).symm
  unfold rowDot
  refine Finset.sum_congr rfl fun k _ => ?_
  rw [iblk0_apply m c t p k r hr, iblk1_apply m c t p k r hr]

/-- Point `t` writes back to the second output block `t` of the column of target · target row sums. -/
theorem flushed3_eq (c : Dev nD) (t : Fin cfg0.N) :
    (dats m 0 c).flushed 3 t
      = ((cfg0.win 3).blk t).view.read (Elt Ideal) (colDot (V m c main_arg1) (V m c main_arg1)) := by
  show (cfg0.win 3).cut (grid0.coords t) ((dats m 0 c).after 3 t) = _
  rw [after0_3]
  unfold out0_3
  rw [View.canon_unit_zero hz]
  simp only [View.ld_unit_zero (S := S32x48000) hz]
  obtain ⟨-, -, -, -, -, -, -, -, -, e9⟩ := idx_facts t
  funext j
  obtain ⟨p, q, rfl⟩ : ∃ (p : Fin 32) (q : Fin 1), j = ix2 p q := ⟨j 0, j 1, eq_ix2 j⟩
  have hp := p.isLt
  obtain ⟨r, hr⟩ : ∃ r : Fin 256, r.val = win0_2.index t (0 : Fin 2) * 32 + p.val := ⟨⟨_, by omega⟩, rfl⟩
  have eL : (win0 3).cut (grid0.coords t) (k0_pay2 (F := Ideal) (iblk m c 0 t)) (ix2 p q)
      = k0_pay1 (F := Ideal) (iblk m c 0 t) (iblk m c 0 t) (ix2 p q) := rfl
  rw [eL, View.read_apply, cast_eq]
  refine (pay_dot (iblk m c 0 t) (iblk m c 0 t) p q).trans ?_
  refine Eq.trans ?_ (colDot_emb3 _ _ t p q r hr).symm
  unfold rowDot
  refine Finset.sum_congr rfl fun k _ => ?_
  rw [iblk0_apply m c t p k r hr]

/-- Point `t` writes back to the third output block `t` of the column of input · input row sums. -/
theorem flushed4_eq (c : Dev nD) (t : Fin cfg0.N) :
    (dats m 0 c).flushed 4 t
      = ((cfg0.win 4).blk t).view.read (Elt Ideal) (colDot (V m c main_arg0) (V m c main_arg0)) := by
  show (cfg0.win 4).cut (grid0.coords t) ((dats m 0 c).after 4 t) = _
  rw [after0_4]
  unfold out0_4
  rw [View.canon_unit_zero hz]
  simp only [View.ld_unit_zero (S := S32x48000) hz]
  obtain ⟨-, -, -, -, -, -, -, -, -, e9⟩ := idx_facts t
  funext j
  obtain ⟨p, q, rfl⟩ : ∃ (p : Fin 32) (q : Fin 1), j = ix2 p q := ⟨j 0, j 1, eq_ix2 j⟩
  have hp := p.isLt
  obtain ⟨r, hr⟩ : ∃ r : Fin 256, r.val = win0_2.index t (0 : Fin 2) * 32 + p.val := ⟨⟨_, by omega⟩, rfl⟩
  have eL : (win0 4).cut (grid0.coords t) (k0_pay3 (F := Ideal) (iblk m c 1 t)) (ix2 p q)
      = k0_pay1 (F := Ideal) (iblk m c 1 t) (iblk m c 1 t) (ix2 p q) := rfl
  rw [eL, View.read_apply, cast_eq]
  refine (pay_dot (iblk m c 1 t) (iblk m c 1 t) p q).trans ?_
  refine Eq.trans ?_ (colDot_emb4 _ _ t p q r hr).symm
  unfold rowDot
  refine Finset.sum_congr rfl fun k _ => ?_
  rw [iblk1_apply m c t p k r hr]

/-! ## The eight blocks tile the 256 rows -/

/-- An index of an output array is in point `t`'s block iff each coordinate is in the block's range on its axis. -/
theorem mem_blk2 (t : Fin cfg0.N) (i : S256x1.Idx) :
    i ∈ ((cfg0.win 2).blk t).view.set
      ↔ ∀ a : Fin 2, win0_2.index t a * S32x1.size a ≤ (i a).val ∧ (i a).val < win0_2.index t a * S32x1.size a + S32x1.size a := by
  show i ∈ ((View.whole main_v0_0).slice (win0_2.rect t)).set ↔ _
  rw [View.set_slice_whole, Rect.mem_set_unit]
  exact Iff.rfl
theorem mem_blk3 (t : Fin cfg0.N) (i : S256x1.Idx) :
    i ∈ ((cfg0.win 3).blk t).view.set
      ↔ ∀ a : Fin 2, win0_3.index t a * S32x1.size a ≤ (i a).val ∧ (i a).val < win0_3.index t a * S32x1.size a + S32x1.size a := by
  show i ∈ ((View.whole main_v0_1).slice (win0_3.rect t)).set ↔ _
  rw [View.set_slice_whole, Rect.mem_set_unit]
  exact Iff.rfl
theorem mem_blk4 (t : Fin cfg0.N) (i : S256x1.Idx) :
    i ∈ ((cfg0.win 4).blk t).view.set
      ↔ ∀ a : Fin 2, win0_4.index t a * S32x1.size a ≤ (i a).val ∧ (i a).val < win0_4.index t a * S32x1.size a + S32x1.size a := by
  show i ∈ ((View.whole main_v0_2).slice (win0_4.rect t)).set ↔ _
  rw [View.set_slice_whole, Rect.mem_set_unit]
  exact Iff.rfl

/-- Row `r` lies in the block of the point whose block index is `r / 32`. -/
theorem cover2 (i : S256x1.Idx) : ∃ t : Fin cfg0.N, (cfg0.win 2).flush t = true ∧ i ∈ ((cfg0.win 2).blk t).view.set := by
  have hi0 : (i 0).val < 256 := (i 0).isLt
  have hi1 : (i 1).val < 1 := (i 1).isLt
  obtain ⟨t, ht⟩ := idx_onto ⟨(i 0).val / 32, by omega⟩
  have ht' : win0_2.index t (0 : Fin 2) = (i 0).val / 32 := ht
  obtain ⟨-, -, -, -, -, -, -, -, e8, -⟩ := idx_facts t
  refine ⟨t, flush0_2 t, ?_⟩
  rw [mem_blk2]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 1 ≤ (i 1).val ∧ (i 1).val < win0_2.index t (1 : Fin 2) * 1 + 1; omega
theorem cover3 (i : S256x1.Idx) : ∃ t : Fin cfg0.N, (cfg0.win 3).flush t = true ∧ i ∈ ((cfg0.win 3).blk t).view.set := by
  have hi0 : (i 0).val < 256 := (i 0).isLt
  have hi1 : (i 1).val < 1 := (i 1).isLt
  obtain ⟨t, ht⟩ := idx_onto ⟨(i 0).val / 32, by omega⟩
  have ht' : win0_2.index t (0 : Fin 2) = (i 0).val / 32 := ht
  obtain ⟨-, -, -, -, e4, e5, -⟩ := idx_facts t
  refine ⟨t, flush0_3 t, ?_⟩
  rw [mem_blk3]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 1 ≤ (i 1).val ∧ (i 1).val < win0_3.index t (1 : Fin 2) * 1 + 1; omega
theorem cover4 (i : S256x1.Idx) : ∃ t : Fin cfg0.N, (cfg0.win 4).flush t = true ∧ i ∈ ((cfg0.win 4).blk t).view.set := by
  have hi0 : (i 0).val < 256 := (i 0).isLt
  have hi1 : (i 1).val < 1 := (i 1).isLt
  obtain ⟨t, ht⟩ := idx_onto ⟨(i 0).val / 32, by omega⟩
  have ht' : win0_2.index t (0 : Fin 2) = (i 0).val / 32 := ht
  obtain ⟨-, -, -, -, -, -, e6, e7, -⟩ := idx_facts t
  refine ⟨t, flush0_4 t, ?_⟩
  rw [mem_blk4]
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 1 ≤ (i 1).val ∧ (i 1).val < win0_4.index t (1 : Fin 2) * 1 + 1; omega

/-! ## The three output arrays after the region -/

/-- The first output array ends as the column of target · input row sums, -/
theorem final2 (c : Dev nD) : (dats m 0 c).arrAt 2 cfg0.N = colDot (V m c main_arg1) (V m c main_arg0) :=
  (dats m 0 c).arrAt_eq_of_cover 2 _ (fun t _ => flushed2_eq m c t) cover2
/-- the second as the column of target · target row sums, -/
theorem final3 (c : Dev nD) : (dats m 0 c).arrAt 3 cfg0.N = colDot (V m c main_arg1) (V m c main_arg1) :=
  (dats m 0 c).arrAt_eq_of_cover 3 _ (fun t _ => flushed3_eq m c t) cover3
/-- and the third as the column of input · input row sums. -/
theorem final4 (c : Dev nD) : (dats m 0 c).arrAt 4 cfg0.N = colDot (V m c main_arg0) (V m c main_arg0) :=
  (dats m 0 c).arrAt_eq_of_cover 4 _ (fun t _ => flushed4_eq m c t) cover4

end Cert.KernelIdeal.Rows

end
-- ==== Proof.KernelTail.lean ====
/-
  The kernel program's result at the ideal instance: the host operations after the region, applied to the three
  columns of row inner products the region leaves.

  From the columns `d = ⟨T, X⟩`, `e = ⟨T, T⟩`, `n = ⟨X, X⟩` (one entry a row) the host forms, row by row, the scale
  `s = d / e`, the projection energy `s² · e`, the residual energy `(n − 2 s d) + s² e` and their quotient
  (`ratioOf`); then `finish`: ten times the decimal logarithm of each ratio (the natural logarithm times the constant
  the program spells for 1 / ln 10), their mean over the 256 rows, negated.
-/
import proofs.«121650_j12833362280914_1_alg».proof.Proof.KernelRows
import Idealize.ShloMosaic.Lib.StableHlo.Run

set_option maxRecDepth 16384

noncomputable section

open scoped BigOperators

namespace Cert.KernelIdeal.Tail

open Cert.KernelIdeal Cert.KernelIdeal.Gen Cert.KernelIdeal.Rows Cert.RowSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

/-! ## The two stretches of the tail as functions -/

/-- The per-row ratio from the three 256 × 1 columns: projection energy over residual energy. -/
def ratioOf (d e n : FVec Ideal S256x1 .f32) : FVec Ideal S256 .f32 :=
  Host.divf
    (mulf (mulf (Host.divf (shapeCast S256 d shapeCasts_S256x1_S256) (shapeCast S256 e shapeCasts_S256x1_S256))
        (Host.divf (shapeCast S256 d shapeCasts_S256x1_S256) (shapeCast S256 e shapeCasts_S256x1_S256)))
      (shapeCast S256 e shapeCasts_S256x1_S256))
    (addf
      (subf (shapeCast S256 n shapeCasts_S256x1_S256)
        (mulf (mulf (broadcastInDim S256 ![] bcast_S_S256 (constant (F := Ideal) S_ .f32 0x40000000#32))
            (Host.divf (shapeCast S256 d shapeCasts_S256x1_S256) (shapeCast S256 e shapeCasts_S256x1_S256)))
          (shapeCast S256 d shapeCasts_S256x1_S256)))
      (mulf (mulf (Host.divf (shapeCast S256 d shapeCasts_S256x1_S256) (shapeCast S256 e shapeCasts_S256x1_S256))
          (Host.divf (shapeCast S256 d shapeCasts_S256x1_S256) (shapeCast S256 e shapeCasts_S256x1_S256)))
        (shapeCast S256 e shapeCasts_S256x1_S256)))

/-- From the 256 ratios to the result: minus the mean of ten times each ratio's logarithm times the program's
    constant for 1 / ln 10. -/
def finish (ratio : FVec Ideal S256 .f32) : FVec Ideal S_ .f32 :=
  Host.negf (Host.divf
    (Host.reduceAdd
      (mulf (broadcastInDim S256 ![] bcast_S_S256 (constant (F := Ideal) S_ .f32 0x41200000#32))
        (mulf (Host.log ratio) (broadcastInDim S256 ![] bcast_S_S256 (constant (F := Ideal) S_ .f32 0x3EDE5BD9#32))))
      (constant (F := Ideal) S_ .f32 0x00000000#32) reducesTo_S256_S_d0 h_S_)
    (constant (F := Ideal) S_ .f32 0x43800000#32))

/-! ## The tail after the region -/

/-- The result buffer is written by the host only: it is no array of the region and no staging buffer. -/
theorem result_rest : main_v22 ∈ Pipeline.restRefs sig (cfgs 0).spec :=
  Pipeline.mem_restRefs_of main_v22 rfl (by decide)

set_option maxHeartbeats 4000000 in
/-- The host operations after the region compute `finish (ratioOf …)` of the three columns the region leaves. -/
theorem tail_eq (c : Dev nD) :
    Pipeline.afterTail₀ cfgs (dats m) 0 (V0 m) [hostOps1] c main_v22
      = finish (ratioOf (colDot (V m c main_arg1) (V m c main_arg0)) (colDot (V m c main_arg1) (V m c main_arg1))
          (colDot (V m c main_arg0) (V m c main_arg0))) := by
  have h2 : Pipeline.withArrays (cfgs 0).spec c (V0 m c) (fun w => (dats m 0 c).arrAt w (cfgs 0).N) (Proc.devRef .tc main_v0_0)
      = colDot (V m c main_arg1) (V m c main_arg0) :=
    (Pipeline.withArrays_arr spec0 launch0.win.arr_inj c _ _ 2).trans (final2 m c)
  have h3 : Pipeline.withArrays (cfgs 0).spec c (V0 m c) (fun w => (dats m 0 c).arrAt w (cfgs 0).N) (Proc.devRef .tc main_v0_1)
      = colDot (V m c main_arg1) (V m c main_arg1) :=
    (Pipeline.withArrays_arr spec0 launch0.win.arr_inj c _ _ 3).trans (final3 m c)
  have h4 : Pipeline.withArrays (cfgs 0).spec c (V0 m c) (fun w => (dats m 0 c).arrAt w (cfgs 0).N) (Proc.devRef .tc main_v0_2)
      = colDot (V m c main_arg0) (V m c main_arg0) :=
    (Pipeline.withArrays_arr spec0 launch0.win.arr_inj c _ _ 4).trans (final4 m c)
  unfold Pipeline.afterTail₀
  simp only [List.flatten_cons, List.flatten_nil, List.append_nil]
  after_results
  rw [h2, h3, h4]
  rfl

/-! ## The kernel program's run -/

/-- Every weakly fair execution of the kernel program ends with the result at `finish (ratioOf …)` of the row inner
    products of the argument arrays, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v22)
        = finish (ratioOf (colDot (m ((c : Thread nD τ).loc main_arg1)) (m ((c : Thread nD τ).loc main_arg0)))
            (colDot (m ((c : Thread nD τ).loc main_arg1)) (m ((c : Thread nD τ).loc main_arg1)))
            (colDot (m ((c : Thread nD τ).loc main_arg0)) (m ((c : Thread nD τ).loc main_arg0))))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v22 result_rest).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

/-! ## The ratio at a row -/

/-- The ratio's operations are entrywise: entry `i` of the quotient is the quotient of the entries. -/
theorem ratio_pointwise (d1 e1 n1 two : FVec Ideal S256 .f32) (i : S256.Idx) :
    Host.divf (mulf (mulf (Host.divf d1 e1) (Host.divf d1 e1)) e1)
        (addf (subf n1 (mulf (mulf two (Host.divf d1 e1)) d1)) (mulf (mulf (Host.divf d1 e1) (Host.divf d1 e1)) e1)) i
      = Ideal.div ((Ideal.div (d1 i) (e1 i) * Ideal.div (d1 i) (e1 i)) * e1 i)
          ((n1 i - (two i * Ideal.div (d1 i) (e1 i)) * d1 i) + (Ideal.div (d1 i) (e1 i) * Ideal.div (d1 i) (e1 i)) * e1 i) := rfl

/-- Row `r` of `ratioOf` of the three columns: with `s` the row's correlation over its target energy, the quotient of
    `s² · ⟨T, T⟩` by `(⟨X, X⟩ − 2 s ⟨T, X⟩) + s² ⟨T, T⟩`. -/
theorem ratioOf_apply (T X : S256x48000.Idx → EReal) (r : Fin 256) :
    ratioOf (colDot T X) (colDot T T) (colDot X X) (ix1 r)
      = Ideal.div
          ((Ideal.div (rowDot T X r) (rowDot T T r) * Ideal.div (rowDot T X r) (rowDot T T r)) * rowDot T T r)
          ((rowDot X X r - (Ideal.ofBits .f32 0x40000000#32 * Ideal.div (rowDot T X r) (rowDot T T r)) * rowDot T X r)
            + (Ideal.div (rowDot T X r) (rowDot T T r) * Ideal.div (rowDot T X r) (rowDot T T r)) * rowDot T T r) := by
  have hc : ∀ (A B : S256x48000.Idx → EReal),
      shapeCast S256 (colDot A B) shapeCasts_S256x1_S256 (ix1 r) = rowDot A B r := fun A B =>
    (shapeCast_apply (colDot A B) shapeCasts_S256x1_S256 (ix1 r) (ix2 r (0 : Fin 1)) (by
      rw [Shape.rowMajor_val_two, Shape.rowMajor_val_one]
      show r.val * 1 + 0 = r.val
      omega)).trans rfl
  have hb : broadcastInDim S256 ![] bcast_S_S256 (constant (F := Ideal) S_ .f32 0x40000000#32) (ix1 r)
      = Ideal.ofBits .f32 0x40000000#32 :=
    broadcastInDim_apply _ bcast_S_S256 _ (ix1 r) ix0 (fun a => a.elim0)
  refine (ratio_pointwise _ _ _ _ (ix1 r)).trans ?_
  rw [hc, hc, hc, hb]

end Cert.KernelIdeal.Tail

end
-- ==== Proof.RefRows.lean ====
/-
  The reference's per-row ratio, read at an index.

  With `T` the target and `X` the input, row `r` of the reference computes the scale `s = ⟨T, X⟩ / ⟨T, T⟩` (row inner
  products), the projection `s · T` and the residual `X − s · T` entry by entry along the row, and divides the
  projection's energy `Σ (s · T)²` by the residual's energy `Σ (X − s · T)²`. Each stage below is the generated
  reading of one operation, the sums' zero initial value dropped.
-/
import proofs.«121650_j12833362280914_1_alg».proof.Proof.Gen.ReferenceIdeal.Read
import proofs.«121650_j12833362280914_1_alg».proof.Proof.RowSpec
import Idealize.ShloMosaic.Lib.ValueIdx
import Idealize.ShloMosaic.PureOps.Ideal.Laws

noncomputable section

open scoped BigOperators

namespace Cert.ReferenceIdeal.Rows

open Cert.ReferenceIdeal Cert.ReferenceIdeal.Gen Cert.ReferenceIdeal.Read Cert.RowSpec
open Idealize.ShloMosaic Idealize.ShloMosaic.ValueIdx

variable (X T : FVec Ideal S256x48000 .f32)

/-! ## The generated index functions at coordinates -/

theorem idx_v1 (r : Fin 256) (k : Fin 48000) : idx_main_v1 (ix1 r) k = ix2 r k :=
  funext fun a => Fin.ext (by match a with | ⟨0, _⟩ => rfl | ⟨1, _⟩ => rfl)
theorem idx_v3 (r : Fin 256) (k : Fin 48000) : idx_main_v3 (ix1 r) k = ix2 r k :=
  funext fun a => Fin.ext (by match a with | ⟨0, _⟩ => rfl | ⟨1, _⟩ => rfl)
theorem idx_v10 (r : Fin 256) (k : Fin 48000) : idx_main_v10 (ix1 r) k = ix2 r k :=
  funext fun a => Fin.ext (by match a with | ⟨0, _⟩ => rfl | ⟨1, _⟩ => rfl)
theorem idx_v12 (r : Fin 256) (k : Fin 48000) : idx_main_v12 (ix1 r) k = ix2 r k :=
  funext fun a => Fin.ext (by match a with | ⟨0, _⟩ => rfl | ⟨1, _⟩ => rfl)
/-- The scale is broadcast along the row: entry `(r, k)` reads the scale's entry `r`. -/
theorem idx_v6 (r : Fin 256) (k : Fin 48000) : idx_main_v5 (idx_main_v6 (ix2 r k)) = ix1 r :=
  funext fun a => Fin.ext (by match a with | ⟨0, _⟩ => rfl)

/-! ## The stages at a row -/

/-- The correlation of row `r`: the inner product of the target's and the input's rows. -/
theorem corr_apply (r : Fin 256) : val_main_v1 (F := Ideal) X T (ix1 r) = rowDot T X r := by
  rw [val_main_v1_apply, val_main_cst_apply, Ideal.ofBits_def, Ideal.ofBits_zero_f32, zero_add]
  unfold rowDot
  refine Finset.sum_congr rfl fun k _ => ?_
  rw [val_main_v0_apply, idx_v1]
  rfl

/-- The target's energy in row `r`. -/
theorem tgt_apply (r : Fin 256) : val_main_v3 (F := Ideal) T (ix1 r) = rowDot T T r := by
  rw [val_main_v3_apply, val_main_cst_0_apply, Ideal.ofBits_def, Ideal.ofBits_zero_f32, zero_add]
  unfold rowDot
  refine Finset.sum_congr rfl fun k _ => ?_
  rw [val_main_v2_apply, idx_v3]
  rfl

/-- The scale of row `r`: correlation over target energy. -/
theorem scale_apply (r : Fin 256) :
    val_main_v4 (F := Ideal) X T (ix1 r) = Ideal.div (rowDot T X r) (rowDot T T r) := by
  rw [val_main_v4_apply, corr_apply, tgt_apply]
  rfl

/-- The projection at `(r, k)`: the row's scale times the target's entry. -/
theorem proj_apply (r : Fin 256) (k : Fin 48000) :
    val_main_v7 (F := Ideal) X T (ix2 r k) = Ideal.div (rowDot T X r) (rowDot T T r) * T (ix2 r k) := by
  rw [val_main_v7_apply, val_main_v6_apply, val_main_v5_apply, idx_v6, scale_apply]
  rfl

/-- The projection's energy in row `r`. -/
theorem projEnergy_apply (r : Fin 256) :
    val_main_v10 (F := Ideal) X T (ix1 r)
      = ∑ k : Fin 48000, (Ideal.div (rowDot T X r) (rowDot T T r) * T (ix2 r k))
          * (Ideal.div (rowDot T X r) (rowDot T T r) * T (ix2 r k)) := by
  rw [val_main_v10_apply, val_main_cst_1_apply, Ideal.ofBits_def, Ideal.ofBits_zero_f32, zero_add]
  refine Finset.sum_congr rfl fun k _ => ?_
  rw [val_main_v9_apply, idx_v10, proj_apply]
  rfl

/-- The residual's energy in row `r`. -/
theorem resEnergy_apply (r : Fin 256) :
    val_main_v12 (F := Ideal) X T (ix1 r)
      = ∑ k : Fin 48000, (X (ix2 r k) - Ideal.div (rowDot T X r) (rowDot T T r) * T (ix2 r k))
          * (X (ix2 r k) - Ideal.div (rowDot T X r) (rowDot T T r) * T (ix2 r k)) := by
  rw [val_main_v12_apply, val_main_cst_2_apply, Ideal.ofBits_def, Ideal.ofBits_zero_f32, zero_add]
  refine Finset.sum_congr rfl fun k _ => ?_
  rw [val_main_v11_apply, idx_v12, val_main_v8_apply, proj_apply]
  rfl

/-- The ratio of row `r`: projection energy over residual energy. -/
theorem ratio_apply (r : Fin 256) :
    val_main_v13 (F := Ideal) X T (ix1 r)
      = Ideal.div
          (∑ k : Fin 48000, (Ideal.div (rowDot T X r) (rowDot T T r) * T (ix2 r k))
            * (Ideal.div (rowDot T X r) (rowDot T T r) * T (ix2 r k)))
          (∑ k : Fin 48000, (X (ix2 r k) - Ideal.div (rowDot T X r) (rowDot T T r) * T (ix2 r k))
            * (X (ix2 r k) - Ideal.div (rowDot T X r) (rowDot T T r) * T (ix2 r k))) := by
  rw [val_main_v13_apply, projEnergy_apply, resEnergy_apply]
  rfl

end Cert.ReferenceIdeal.Rows

end
-- ==== Proof.RealEnergy.lean ====
import Idealize.ShloMosaic.PureOps.Ideal
import Mathlib.Data.EReal.Basic
import Mathlib.Data.EReal.Operations
import Mathlib.Algebra.BigOperators.Ring.Finset
import Mathlib.Algebra.Order.BigOperators.Group.Finset
import Mathlib.Tactic.Ring

/-!
  Projection energy and residual energy of one real row against another, stated on the
  extended reals.  With `d = Σ aₖ bₖ`, `e = Σ aₖ²`, `n = Σ bₖ²` and `s = d / e`:
  `Σ (s aₖ)² = s² e` and `Σ (bₖ - s aₖ)² = (n - 2 s d) + s² e`.
  When `e = 0` every `aₖ` is `0`, so both sides collapse whatever value `s` takes.
-/

namespace Cert.RowEnergy

open Idealize.ShloMosaic

/-- The coercion of a finite real sum is the sum of the coercions. -/
private theorem coe_sum {ι : Type*} (t : Finset ι) (f : ι → ℝ) :
    ((∑ k ∈ t, f k : ℝ) : EReal) = ∑ k ∈ t, (f k : EReal) := by
  classical
  induction t using Finset.induction_on with
  | empty => simp
  | insert x t hx ih => rw [Finset.sum_insert hx, Finset.sum_insert hx, EReal.coe_add, ih]

/-- The two identities when the scale factor is a real number: pure real algebra. -/
private theorem energy_real {ι : Type*} [Fintype ι] (a b : ι → ℝ) (t : ℝ) :
    (∑ k, ((t : EReal) * (a k : EReal)) * ((t : EReal) * (a k : EReal))
      = ((t : EReal) * (t : EReal)) * (∑ j, (a j : EReal) * (a j : EReal)))
    ∧ (∑ k, ((b k : EReal) - (t : EReal) * (a k : EReal)) * ((b k : EReal) - (t : EReal) * (a k : EReal))
      = ((∑ j, (b j : EReal) * (b j : EReal))
          - (((2 : ℝ) : EReal) * (t : EReal)) * (∑ j, (a j : EReal) * (b j : EReal)))
        + ((t : EReal) * (t : EReal)) * (∑ j, (a j : EReal) * (a j : EReal))) := by
  have h1 : (∑ k, (t * a k) * (t * a k) : ℝ) = (t * t) * ∑ j, a j * a j := by
    rw [Finset.mul_sum]
    exact Finset.sum_congr rfl (fun k _ => by ring)
  have h2 : (∑ k, (b k - t * a k) * (b k - t * a k) : ℝ)
      = ((∑ j, b j * b j) - (2 * t) * ∑ j, a j * b j) + (t * t) * ∑ j, a j * a j := by
    rw [Finset.mul_sum, Finset.mul_sum, ← Finset.sum_sub_distrib, ← Finset.sum_add_distrib]
    exact Finset.sum_congr rfl (fun k _ => by ring)
  constructor
  · simp only [← EReal.coe_mul, ← coe_sum]
    rw [h1]
  · simp only [← EReal.coe_mul, ← EReal.coe_sub, ← coe_sum, ← EReal.coe_add]
    rw [h2]

open Idealize.ShloMosaic in
theorem energy_parts {ι : Type*} [Fintype ι] (a b : ι → ℝ) (two : EReal) (h2 : two = ((2 : ℝ) : EReal)) :
    (∑ k, (Ideal.div (∑ j, (a j : EReal) * (b j : EReal)) (∑ j, (a j : EReal) * (a j : EReal)) * (a k : EReal))
          * (Ideal.div (∑ j, (a j : EReal) * (b j : EReal)) (∑ j, (a j : EReal) * (a j : EReal)) * (a k : EReal))
      = (Ideal.div (∑ j, (a j : EReal) * (b j : EReal)) (∑ j, (a j : EReal) * (a j : EReal))
          * Ideal.div (∑ j, (a j : EReal) * (b j : EReal)) (∑ j, (a j : EReal) * (a j : EReal)))
        * (∑ j, (a j : EReal) * (a j : EReal)))
    ∧ (∑ k, ((b k : EReal) - Ideal.div (∑ j, (a j : EReal) * (b j : EReal)) (∑ j, (a j : EReal) * (a j : EReal)) * (a k : EReal))
          * ((b k : EReal) - Ideal.div (∑ j, (a j : EReal) * (b j : EReal)) (∑ j, (a j : EReal) * (a j : EReal)) * (a k : EReal))
      = ((∑ j, (b j : EReal) * (b j : EReal))
          - (two * Ideal.div (∑ j, (a j : EReal) * (b j : EReal)) (∑ j, (a j : EReal) * (a j : EReal))) * (∑ j, (a j : EReal) * (b j : EReal)))
        + (Ideal.div (∑ j, (a j : EReal) * (b j : EReal)) (∑ j, (a j : EReal) * (a j : EReal))
            * Ideal.div (∑ j, (a j : EReal) * (b j : EReal)) (∑ j, (a j : EReal) * (a j : EReal)))
          * (∑ j, (a j : EReal) * (a j : EReal))) := by
  subst h2
  by_cases h : (∑ j, a j * a j : ℝ) = 0
  · -- every entry of the target row vanishes
    have hz : ∀ k ∈ (Finset.univ : Finset ι), a k * a k = 0 :=
      (Finset.sum_eq_zero_iff_of_nonneg (fun k _ => mul_self_nonneg (a k))).mp h
    have ha : a = fun _ => 0 := funext (fun k => mul_self_eq_zero.mp (hz k (Finset.mem_univ k)))
    subst ha
    simp
  · -- the scale factor is the real quotient
    have hs : Ideal.div (∑ j, (a j : EReal) * (b j : EReal)) (∑ j, (a j : EReal) * (a j : EReal))
        = (((∑ j, a j * b j) * (1 / ∑ j, a j * a j) : ℝ) : EReal) := by
      simp only [← EReal.coe_mul, ← coe_sum]
      rw [Ideal.div_coe h, ← EReal.coe_mul]
    rw [hs]
    exact energy_real a b _

end Cert.RowEnergy
-- ==== Proof.Consts.lean ====
/-
  The one float constant whose value the proof uses: the word 0x40000000 denotes the real number 2.
-/
import Idealize.ShloMosaic.PureOps.Ideal

noncomputable section

namespace Cert.SnrConsts

open Idealize.ShloMosaic

/-- `2.0`, the factor of the cross term in the residual's energy, denotes the real `2`. -/
theorem ofBits_two : Ideal.ofBits .f32 0x40000000#32 = ((2 : ℝ) : EReal) := by
  simp [Ideal.ofBits, Ideal.ieee, -EReal.coe_mul]; norm_num

end Cert.SnrConsts

end
-- ==== Proof.Bridge.lean ====
/-
  The kernel's per-row ratio and the reference's are one function of real-valued arrays.

  Row `r` of the kernel's ratio is `s² e / ((n − 2 s d) + s² e)` from the row's three inner products `d = ⟨T, X⟩`,
  `e = ⟨T, T⟩`, `n = ⟨X, X⟩` and `s = d / e`; row `r` of the reference's is `Σ (s T)² / Σ (X − s T)²` along the row.
  For real entries the numerators agree and the denominators agree (`RowEnergy.energy_parts`: expand the squares
  when `e ≠ 0`; when `e = 0` the target's row vanishes and both sides collapse whatever `s` is), so the quotients do.
-/
import proofs.«121650_j12833362280914_1_alg».proof.Proof.KernelTail
import proofs.«121650_j12833362280914_1_alg».proof.Proof.RefRows
import proofs.«121650_j12833362280914_1_alg».proof.Proof.RealEnergy
import proofs.«121650_j12833362280914_1_alg».proof.Proof.Consts

noncomputable section

open scoped BigOperators

namespace Cert.Bridge

open Cert.RowSpec
open Idealize.ShloMosaic Idealize.ShloMosaic.ValueIdx

/-- For arrays of real numbers the kernel's ratio of the three columns is the reference's ratio stage. -/
theorem ratio_eq (X T : (⟨2, ![256, 48000]⟩ : Shape).Idx → EReal)
    (hX : ∀ i, ∃ r : ℝ, X i = (r : EReal)) (hT : ∀ i, ∃ r : ℝ, T i = (r : EReal)) :
    Cert.KernelIdeal.Tail.ratioOf (colDot T X) (colDot T T) (colDot X X)
      = Cert.ReferenceIdeal.Read.val_main_v13 (F := Ideal) X T := by
  funext i
  obtain ⟨r, rfl⟩ : ∃ r : Fin 256, i = ix1 r := ⟨i 0, eq_ix1 i⟩
  rw [Cert.KernelIdeal.Tail.ratioOf_apply, Cert.ReferenceIdeal.Rows.ratio_apply]
  choose a ha using hT
  choose b hb using hX
  have he := Cert.RowEnergy.energy_parts (fun k : Fin 48000 => a (ix2 r k)) (fun k : Fin 48000 => b (ix2 r k))
    (Ideal.ofBits .f32 0x40000000#32) Cert.SnrConsts.ofBits_two
  beta_reduce at he
  obtain ⟨e1, e2⟩ := he
  unfold rowDot
  simp only [ha, hb]
  rw [e1, e2]

end Cert.Bridge

end
-- ==== Proof.FiniteEntries.lean ====
import proofs.«121650_j12833362280914_1_alg».proof.Pre_finite_inputs
import Idealize.ShloMosaic.Lib.ReduceAll
import Idealize.ShloMosaic.Lib.ValueIdx
import Idealize.ShloMosaic.PureOps.Ideal.Laws

/-!
  From "every float input is finite" to "every entry of both arrays is a real number", at the ideal instance.
  The precondition compares |x| with +∞ at every entry and takes the conjunction over all entries of both arrays;
  an extended real whose absolute value max x (-x) lies strictly below ⊤ is neither ⊥ nor ⊤, hence a real.
-/

namespace Cert.FiniteEntries

open Idealize.ShloMosaic

/-- The f32 word 0x7F800000 denotes +∞. -/
private theorem inf_bits : Ideal.ofBits .f32 0x7F800000#32 = (⊤ : EReal) := by
  simp [Ideal.ofBits, Ideal.ieee]

/-- An extended real with max x (-x) < ⊤ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- The ordered less-than comparison of |x| with the +∞ word coming out 1 makes x a real number. -/
private theorem real_of_cmp (x : EReal)
    (h : Ideal.cmp .olt (max x (-x)) (Ideal.ofBits .f32 0x7F800000#32) = 1#1) : ∃ r : ℝ, x = (r : EReal) := by
  rw [inf_bits] at h
  have h' : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  exact real_of_abs_lt_top x h'

/-- The rank-0 shape has exactly one index. -/
local instance idxSubsingleton : Subsingleton Cert.Pre_finite_inputs.S_.Idx := ⟨fun a b => funext fun d => d.elim0⟩

theorem real_of_pre [Cert.Pre_finite_inputs.Facts]
    (a0 a1 : FVec Ideal Cert.Pre_finite_inputs.S256x48000 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨e0, e1⟩ := IntOp.andi_eq_one.1 h0
  refine ⟨fun i => ?_, fun i => ?_⟩
  · have hi := Host.reduce_andi_all _ _ _ _ _ e0 i
    exact real_of_cmp (a0 i) hi
  · have hi := Host.reduce_andi_all _ _ _ _ _ e1 i
    exact real_of_cmp (a1 i) hi

end Cert.FiniteEntries
-- ==== Proof.lean ====
/-
  The certificate of the signal-to-noise kernel against its reference: three frames, the (empty) idealization
  ledger, and the equality of the two idealized programs' results.

  Both programs compute, for each of 256 rows of a target `T` and an input `X` (48000 columns), the ratio of the
  energy of the projection of `X` on `T` to the energy of the residual, and return minus the mean of ten times the
  ratios' decimal logarithms. The reference forms the projection `s T` and the residual `X − s T` entry by entry and
  sums their squares; the kernel sums `T · X`, `T · T` and `X · X` along each row on the chip and gets both energies
  from those three numbers. For finite inputs the two agree row by row (Proof/Bridge.lean); what follows the ratio
  is the same stretch of operations in both programs.
-/
import proofs.«121650_j12833362280914_1_alg».proof.Defs
import proofs.«121650_j12833362280914_1_alg».proof.Proof.Gen.Kernel
import proofs.«121650_j12833362280914_1_alg».proof.Proof.Gen.Kernel.Skeleton
import proofs.«121650_j12833362280914_1_alg».proof.Proof.Gen.Kernel.Launch
import proofs.«121650_j12833362280914_1_alg».proof.Proof.Gen.Kernel.Points
import proofs.«121650_j12833362280914_1_alg».proof.Proof.Gen.Kernel.Frame
import proofs.«121650_j12833362280914_1_alg».proof.Proof.Gen.KernelIdeal
import proofs.«121650_j12833362280914_1_alg».proof.Proof.Gen.KernelIdeal.Skeleton
import proofs.«121650_j12833362280914_1_alg».proof.Proof.Gen.KernelIdeal.Launch
import proofs.«121650_j12833362280914_1_alg».proof.Proof.Gen.KernelIdeal.Points
import proofs.«121650_j12833362280914_1_alg».proof.Proof.Gen.KernelIdeal.Frame
import proofs.«121650_j12833362280914_1_alg».proof.Proof.Gen.ReferenceIdeal
import proofs.«121650_j12833362280914_1_alg».proof.Proof.Gen.Pre_finite_inputs
import proofs.«121650_j12833362280914_1_alg».proof.Proof.Gen.ReferenceIdeal.Run
import proofs.«121650_j12833362280914_1_alg».proof.Proof.Gen.ReferenceIdeal.Read
import proofs.«121650_j12833362280914_1_alg».proof.Proof.Bridge
import proofs.«121650_j12833362280914_1_alg».proof.Proof.FiniteEntries
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The closing stretch applied to the reference's ratio stage is the reference's result stage: the same operations
    in the same order. -/
theorem finish_ratio (X T : (⟨Cert.ReferenceIdeal.S256x48000, .f32⟩ : BufTy).Contents (Elt Ideal)) :
    Cert.KernelIdeal.Tail.finish (Cert.ReferenceIdeal.Read.val_main_v13 (F := Ideal) X T)
      = Cert.ReferenceIdeal.Read.val_main_v21 (F := Ideal) X T := rfl

/-- From memories that agree on the two arguments, both idealized programs end with the result at the reference's
    last stage of the kernel's arguments: the reference by its run, the kernel by its run and, the inputs being
    finite, the agreement of the two per-row ratios. -/
theorem algebraic : Cert.algebraic_KernelIdeal_ReferenceIdeal := by
  intro m ρ m' ρ' hpre hagree
  refine ⟨fun c => Cert.ReferenceIdeal.Read.val_main_v21 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Tail.run m ρ)
    obtain ⟨hX, hT⟩ := Cert.FiniteEntries.real_of_pre _ _ (hpre c)
    rw [Cert.Bridge.ratio_eq _ _ hX hT]
    exact finish_ratio _ _
  · refine (θ_run Cert.ReferenceIdeal.defs _ _).mono (fun r h c => ⟨(h c).1.trans ?_, (h c).2⟩)
      (Cert.ReferenceIdeal.Value.run (F := Ideal) m' ρ')
    rw [(hagree c).1, (hagree c).2]
    exact Cert.ReferenceIdeal.Read.val_main_v21_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
